-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x256x256 : Shape := ⟨4, ![16, 128, 256, 256]⟩
abbrev S1x128 : Shape := ⟨2, ![1, 128]⟩
abbrev S1 : Shape := ⟨1, ![1]⟩
abbrev S_ : Shape := ⟨0, ![]⟩

class Facts : Prop where
  bcast_S_S16x128x256x256 : S_.BroadcastsInDim S16x128x256x256 (![] : Fin 0 → Fin S16x128x256x256.rank)
  reducesTo_S16x128x256x256_S_d0_1_2_3 : S16x128x256x256.ReducesTo [0, 1, 2, 3] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16x128x256x256 .f32) (main_arg1 : FVec F S1x128 .f32) (main_arg2 : FVec F S1 .f32) : IVec S_ 1 :=
  let main_v0 : FVec F S16x128x256x256 .f32 := Host.absf main_arg0
  let main_cst : FVec F S_ .f32 := constant S_ .f32 0x7F800000#32
  let main_v1 : FVec F S16x128x256x256 .f32 := broadcastInDim S16x128x256x256 ![] bcast_S_S16x128x256x256 main_cst
  let main_v2 : IVec S16x128x256x256 1 := cmpf .olt main_v0 main_v1
  let main_c : IVec S_ 1 := constantI S_ 1 1#1
  let main_v3 : IVec S_ 1 := (fun x v => Host.reduce IntOp.andi x v reducesTo_S16x128x256x256_S_d0_1_2_3 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16x128x256x256 : Shape := ⟨4, ![16, 128, 256, 256]⟩
abbrev S1x128 : Shape := ⟨2, ![1, 128]⟩
abbrev S1 : Shape := ⟨1, ![1]⟩
abbrev S16x1x128 : Shape := ⟨3, ![16, 1, 128]⟩
abbrev S1x128x64x256 : Shape := ⟨4, ![1, 128, 64, 256]⟩
abbrev S1x1x128 : Shape := ⟨3, ![1, 1, 128]⟩
abbrev S1x128x64 : Shape := ⟨3, ![1, 128, 64]⟩
abbrev S16x128 : Shape := ⟨2, ![16, 128]⟩
abbrev S128x1 : Shape := ⟨2, ![128, 1]⟩
abbrev S16x1 : Shape := ⟨2, ![16, 1]⟩
abbrev S1x1 : Shape := ⟨2, ![1, 1]⟩
abbrev S_ : Shape := ⟨0, ![]⟩
abbrev S16x1x1x1 : Shape := ⟨4, ![16, 1, 1, 1]⟩

abbrev nBuf : Space → Nat
  | .hbm => 19
  | .vmem => 4
  | .smem => 0
  | _ => 0

abbrev bufTy : (tb : Table) → Fin (tcTables nBuf tb) → BufTy
  | .hbm, ⟨0, _⟩ => ⟨S16x128x256x256, .f32⟩
  | .hbm, ⟨1, _⟩ => ⟨S1x128, .f32⟩
  | .hbm, ⟨2, _⟩ => ⟨S1, .f32⟩
  | .hbm, ⟨3, _⟩ => ⟨S16x1x128, .f32⟩
  | .hbm, ⟨4, _⟩ => ⟨S16x128, .f32⟩
  | .hbm, ⟨5, _⟩ => ⟨S128x1, .f32⟩
  | .hbm, ⟨6, _⟩ => ⟨S16x1, .f32⟩
  | .hbm, ⟨7, _⟩ => ⟨S1x1, .f32⟩
  | .hbm, ⟨8, _⟩ => ⟨S16x1, .f32⟩
  | .hbm, ⟨9, _⟩ => ⟨S16x1, .f32⟩
  | .hbm, ⟨10, _⟩ => ⟨S16x1, .f32⟩
  | .hbm, ⟨11, _⟩ => ⟨S16x1, .f32⟩
  | .hbm, ⟨12, _⟩ => ⟨S_, .f32⟩
  | .hbm, ⟨13, _⟩ => ⟨S16x1, .f32⟩
  | .hbm, ⟨14, _⟩ => ⟨S16x1, .f32⟩
  | .hbm, ⟨15, _⟩ => ⟨S_, .f32⟩
  | .hbm, ⟨16, _⟩ => ⟨S16x1, .f32⟩
  | .hbm, ⟨17, _⟩ => ⟨S16x1, .f32⟩
  | .hbm, ⟨18, _⟩ => ⟨S16x1x1x1, .f32⟩
  | .local _ .vmem, ⟨0, _⟩ => ⟨S1x128x64x256, .f32⟩
  | .local _ .vmem, ⟨1, _⟩ => ⟨S1x128x64x256, .f32⟩
  | .local _ .vmem, ⟨2, _⟩ => ⟨S1x1x128, .f32⟩
  | .local _ .vmem, ⟨3, _⟩ => ⟨S1x1x128, .f32⟩
  | _, _ => ⟨S16x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  inb_S1x128x64x256_S1x128x64x256_0_0_0_0 : ∀ a, (![0, 0, 0, 0] : Fin 4 → Nat) a + S1x128x64x256.size a ≤ S1x128x64x256.size a
  h_S1x128x64x256 : 0 < S1x128x64x256.numel
  reduces_S1x128x64x256_S1x128x64 : S1x128x64x256.Reduces [3] S1x128x64
  reduces_S1x128x64_S1x128 : S1x128x64.Reduces [2] S1x128
  shapeCasts_S1x1x128_S1x1x128 : S1x1x128.ShapeCasts S1x1x128
  shapeCasts_S1x128_S1x1x128 : S1x128.ShapeCasts S1x1x128
  shapeCasts_S16x1x128_S16x128 : S16x1x128.ShapeCasts S16x128
  transposes_S1x128_S128x1_1_0 : S1x128.Transposes [1, 0] S128x1
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  bcast_S_S16x1 : S_.BroadcastsInDim S16x1 (![] : Fin 0 → Fin S16x1.rank)
  bcast_S16x1_S16x1x1x1_0_1 : S16x1.BroadcastsInDim S16x1x1x1 (![0, 1] : Fin 2 → Fin S16x1x1x1.rank)
  dot_S16x128_S128x1_S16x1_1_0_0_1_n_n_wf : DotDims.WF S16x128 S128x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x256.size a ≤ S16x128x256x256.size a
  hwx0_0 : ∀ i : grid0.Coords, EltTy.bits .f32 = 32 ∨ (Rect.block (s := S16x128x256x256) S1x128x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S16x1x128.size a
  hwx0_1 : ∀ i : grid0.Coords, EltTy.bits .f32 = 32 ∨ (Rect.block (s := S16x1x128) S1x1x128.size (cc0_transform_1 i) (hinb0_1 i)).WholeWords (EltTy.packing .f32)

variable [Facts₀]

def dot_S16x128_S128x1_S16x1_1_0_0_1_n_n : DotDims S16x128 S128x1 S16x1 where
  lhsContracting := [1]
  rhsContracting := [0]
  lhsNonContracting := [0]
  rhsNonContracting := [1]
  lhsBatch := []
  rhsBatch := []
  wf := dot_S16x128_S128x1_S16x1_1_0_0_1_n_n_wf

abbrev win0_0 : Pipeline.Window sig grid0 :=
  Pipeline.Window.ofSpec (Memref.whole main_arg0) S1x128x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x256x256 : Shape := ⟨4, ![16, 128, 256, 256]⟩
abbrev S1x128 : Shape := ⟨2, ![1, 128]⟩
abbrev S1 : Shape := ⟨1, ![1]⟩
abbrev S_ : Shape := ⟨0, ![]⟩
abbrev S16x128 : Shape := ⟨2, ![16, 128]⟩
abbrev S128x1 : Shape := ⟨2, ![128, 1]⟩
abbrev S16x1 : Shape := ⟨2, ![16, 1]⟩
abbrev S1x1 : Shape := ⟨2, ![1, 1]⟩
abbrev S16x1x1x1 : Shape := ⟨4, ![16, 1, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x128x256x256, .f32⟩
  | .hbm, ⟨1, _⟩ => ⟨S1x128, .f32⟩
  | .hbm, ⟨2, _⟩ => ⟨S1, .f32⟩
  | .hbm, ⟨3, _⟩ => ⟨S_, .f32⟩
  | .hbm, ⟨4, _⟩ => ⟨S16x128, .f32⟩
  | .hbm, ⟨5, _⟩ => ⟨S_, .f32⟩
  | .hbm, ⟨6, _⟩ => ⟨S16x128, .f32⟩
  | .hbm, ⟨7, _⟩ => ⟨S16x128, .f32⟩
  | .hbm, ⟨8, _⟩ => ⟨S128x1, .f32⟩
  | .hbm, ⟨9, _⟩ => ⟨S16x1, .f32⟩
  | .hbm, ⟨10, _⟩ => ⟨S1x1, .f32⟩
  | .hbm, ⟨11, _⟩ => ⟨S16x1, .f32⟩
  | .hbm, ⟨12, _⟩ => ⟨S16x1, .f32⟩
  | .hbm, ⟨13, _⟩ => ⟨S16x1, .f32⟩
  | .hbm, ⟨14, _⟩ => ⟨S16x1, .f32⟩
  | .hbm, ⟨15, _⟩ => ⟨S_, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x1x1x1, .f32⟩
  | _, _ => ⟨S16x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S16x128x256x256_S16x128_d2_3 : S16x128x256x256.ReducesTo [2, 3] S16x128
  h_S_ : 0 < S_.numel
  bcast_S_S16x128 : S_.BroadcastsInDim S16x128 (![] : Fin 0 → Fin S16x128.rank)
  transposes_S1x128_S128x1_1_0 : S1x128.Transposes [1, 0] S128x1
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  bcast_S_S16x1 : S_.BroadcastsInDim S16x1 (![] : Fin 0 → Fin S16x1.rank)
  bcast_S16x1_S16x1x1x1_0_1 : S16x1.BroadcastsInDim S16x1x1x1 (![0, 1] : Fin 2 → Fin S16x1x1x1.rank)
  dot_S16x128_S128x1_S16x1_1_0_0_1_n_n_wf : DotDims.WF S16x128 S128x1 S16x1 [1] [0] [0] [1] [] []

variable [Facts₀]

def dot_S16x128_S128x1_S16x1_1_0_0_1_n_n : DotDims S16x128 S128x1 S16x1 where
  lhsContracting := [1]
  rhsContracting := [0]
  lhsNonContracting := [0]
  rhsNonContracting := [1]
  lhsBatch := []
  rhsBatch := []
  wf := dot_S16x128_S128x1_S16x1_1_0_0_1_n_n_wf

class Facts : Prop extends Facts₀ where

variable [Facts]
-- ==== Proof.PoolPieces.lean ====
/-
  What one run of the pooling body leaves in the output block, in each of its three control cases, as a pure
  function of the input block `x0` and (where the case reads it) the block's running contents `xo1`:

    first chunk (row-chunk 0)    : the block is zeroed, then the chunk's sums are added  — acc (x0, 0)
    middle chunks (1 and 2)      : the chunk's sums are added to the running contents   — acc (x0, xo1)
    last chunk (3)               : the same, then the block is scaled by 2^-16           — scale (acc (x0, xo1))

  where acc is the body's second payload (running contents + lane-and-row sums of the block) and scale its third.
  Each case's stores are whole-block stores, so the block ends at the last store's payload.
-/
import proofs.«423690_j48387101557180_3_alg».proof.Proof.Gen.KernelIdeal.Frame
import Idealize.ShloMosaic.Lib.Pipeline.Value
import Idealize.ShloMosaic.Lib.Tactic

noncomputable section

namespace Cert.KernelIdeal.Pool

open Cert.KernelIdeal Cert.KernelIdeal.Gen
open Idealize.ShloMosaic Idealize.ShloMosaic.TcCoe Idealize.SL.Sem Idealize.ShloMosaic.Tactic

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle chunk: one whole-block store of the running contents plus the chunk's sums. -/
theorem out_B (c : Dev nD) (i : grid0.Coords) (a2 : Memref sig .tc .vmem S1x128x64x256 .f32) (h2 : a2.IsWhole)
    (a3 : Memref sig .tc .vmem S1x1x128 .f32) (h3 : a3.IsWhole) (hc0 : ¬cond0_0 i) (hc1 : ¬cond0_1 i)
    (x0 : Vec F S1x128x64x256 .f32) (xo1 : Vec F S1x1x128 .f32) :
    out0_B_1 c i a2 h2 a3 h3 hc0 hc1 x0 xo1 = k0_pay2 x0 xo1 := by
  unfold out0_B_1
  rw [View.read_writes_eq_canon _ _ _ (cover0_B_1 c i a2 h2 a3 h3 hc0 hc1 x0 xo1)]
  unfold kernelRun0_B
  dsimp only
  sl_unfold_words
  rw [View.canon_unit_zero hz3]
  simp only [View.readAt_eq_ld, h2.read_unread, h3.read_unread, View.ld_unit_zero (S := S1x128x64x256) hz4,
    View.ld_unit_zero (S := S1x1x128) hz3]

/-- The first chunk: the zero block is stored and read back, then the chunk's sums are added to it. -/
theorem out_A (c : Dev nD) (i : grid0.Coords) (a2 : Memref sig .tc .vmem S1x128x64x256 .f32) (h2 : a2.IsWhole)
    (a3 : Memref sig .tc .vmem S1x1x128 .f32) (h3 : a3.IsWhole) (hc0 : cond0_0 i) (hc1 : ¬cond0_1 i)
    (x0 : Vec F S1x128x64x256 .f32) :
    out0_A_1 c i a2 h2 a3 h3 hc0 hc1 x0 = k0_pay2 x0 (k0_pay1 (F := F)) := by
  unfold out0_A_1
  rw [View.read_writes_eq_canon _ _ _ (cover0_A_1 c i a2 h2 a3 h3 hc0 hc1 x0)]
  unfold kernelRun0_A
  dsimp only
  sl_unfold_words
  rw [View.canon_cons_unit_zero (S := S1x1x128) hz3, View.readCov_unit_zero (S := S1x1x128) _ hz3]
  simp only [View.readAt_eq_ld, h2.read_unread, View.ld_unit_zero (S := S1x128x64x256) hz4]

/-- The last chunk: the accumulated block is stored, read back, scaled and stored again. -/
theorem out_C (c : Dev nD) (i : grid0.Coords) (a2 : Memref sig .tc .vmem S1x128x64x256 .f32) (h2 : a2.IsWhole)
    (a3 : Memref sig .tc .vmem S1x1x128 .f32) (h3 : a3.IsWhole) (hc0 : ¬cond0_0 i) (hc1 : cond0_1 i)
    (x0 : Vec F S1x128x64x256 .f32) (xo1 : Vec F S1x1x128 .f32) :
    out0_C_1 c i a2 h2 a3 h3 hc0 hc1 x0 xo1 = k0_pay3 (k0_pay2 x0 xo1) := by
  unfold out0_C_1
  rw [View.read_writes_eq_canon _ _ _ (cover0_C_1 c i a2 h2 a3 h3 hc0 hc1 x0 xo1)]
  unfold kernelRun0_C
  dsimp only
  sl_unfold_words
  rw [View.canon_cons_unit_zero (S := S1x1x128) hz3, View.readCov_unit_zero (S := S1x1x128) _ hz3]
  simp only [View.readAt_eq_ld, h2.read_unread, h3.read_unread, View.ld_unit_zero (S := S1x128x64x256) hz4,
    View.ld_unit_zero (S := S1x1x128) hz3]

end Cert.KernelIdeal.Pool

end
-- ==== Proof.PoolMath.lean ====
/-
  Global average pooling as a chain of chunk sums, over the extended reals.

  The array `x` has shape [16, 128, 256, 256] (batch, channel, row, lane).  The row axis is cut into four
  chunks of 64 rows; the sum of one chunk of one (batch, channel) plane is `chunk x b ch j`.  Two facts join the
  two programs: a plane's total is the sum of its four chunk sums (a re-indexing of a finite sum in a commutative
  monoid, valid at the infinities too), and multiplying by 2^-16 is dividing by 65536 on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.PoolMath

open Idealize.ShloMosaic Idealize.ShloMosaic.ValueIdx

abbrev SX : Shape := ⟨4, ![16, 128, 256, 256]⟩
abbrev SBlk : Shape := ⟨4, ![1, 128, 64, 256]⟩
abbrev SRow : Shape := ⟨3, ![1, 128, 64]⟩
abbrev SLane : Shape := ⟨2, ![1, 128]⟩
abbrev SAcc : Shape := ⟨3, ![1, 1, 128]⟩
abbrev SPool : Shape := ⟨2, ![16, 128]⟩

/-! ## The two scale constants -/

/-- The word 0x47800000 is 2^16. -/
theorem ofBits_65536 : Ideal.ofBits .f32 0x47800000#32 = ((65536 : ℝ) : EReal) := by
  simp [Ideal.ofBits, Ideal.ieee, -EReal.coe_mul]; norm_num

/-- The word 0x37800000 is 2^-16. -/
theorem ofBits_inv65536 : Ideal.ofBits .f32 0x37800000#32 = ((1 / 65536 : ℝ) : EReal) := by
  simp [Ideal.ofBits, Ideal.ieee, -EReal.coe_mul]; norm_num

/-- A product with 2^-16 is the quotient by 2^16, at the infinities too. -/
theorem mul_inv_eq_div (X : EReal) :
    X * Ideal.ofBits .f32 0x37800000#32 = Ideal.div X (Ideal.ofBits .f32 0x47800000#32) := by
  rw [ofBits_65536, ofBits_inv65536, Ideal.div_coe (by norm_num)]

/-! ## One block: two lane reductions are a double sum -/

/-- Inserting a row coordinate and then a lane coordinate over (0, ch) gives (0, ch, row, lane). -/
theorem lift_lift (h3 : SBlk.Reduces [3] SRow) (h2 : SRow.Reduces [2] SLane) (ch : Fin 128) (hh : Fin 64) (w : Fin 256) :
    h3.lift (h2.lift (ix2 0 ch) hh) w = ix4 0 ch hh w := by
  funext a
  apply Fin.ext
  match a with
  | ⟨0, _⟩ => rfl
  | ⟨1, _⟩ => rfl
  | ⟨2, _⟩ => rfl
  | ⟨3, _⟩ => rfl

/-- Summing a [1, 128, 64, 256] block over its lanes and then over its rows gives, at channel `ch`, the double sum
    over rows and lanes. -/
theorem blockSum_apply (v : FVec Ideal SBlk .f32) (h3 : SBlk.Reduces [3] SRow) (h2 : SRow.Reduces [2] SLane)
    (hφ : FKind.Formats .f32) (hacc : (0x00000000#32 : BitVec 32) = FKind.add.neutral .f32 hφ) (ch : Fin 128) :
    multiReduction .add [2] SLane (multiReduction .add [3] SRow v 0x00000000#32 h3 hφ hacc) 0x00000000#32 h2 hφ hacc (ix2 0 ch)
      = ∑ hh : Fin 64, ∑ w : Fin 256, v (ix4 0 ch hh w) := by
  refine (Ideal.multiReduction_add_single _ _ h2 hφ hacc (ix2 0 ch)).trans ?_
  refine Finset.sum_congr rfl fun hh _ => ?_
  refine (Ideal.multiReduction_add_single v _ h3 hφ hacc _).trans ?_
  exact Finset.sum_congr rfl fun w _ => congrArg v (lift_lift h3 h2 ch hh w)

/-! ## The whole plane: the host's two-axis sum is a double sum -/

/-- Plane (b, ch) of `x`, as an embedding of (row, lane) pairs into the array's indices. -/
def planeEmb (b : Fin 16) (ch : Fin 128) : Fin 256 × Fin 256 ↪ SX.Idx :=
  ⟨fun p => ix4 b ch p.1 p.2, fun p q h => Prod.ext (congrFun h 2) (congrFun h 3)⟩

theorem drop_ix4 (h : SX.ReducesTo [2, 3] SPool) (b : Fin 16) (ch : Fin 128) (hh w : Fin 256) :
    h.drop (ix4 b ch hh w) = ix2 b ch := by
  funext a
  match a with
  | ⟨0, _⟩ => rfl
  | ⟨1, _⟩ => rfl

theorem eq_ix4_of_drop (h : SX.ReducesTo [2, 3] SPool) (i : SX.Idx) (j : SPool.Idx) (hd : h.drop i = j) :
    i = ix4 (j 0) (j 1) (i 2) (i 3) := by
  subst hd
  funext a
  match a with
  | ⟨0, _⟩ => rfl
  | ⟨1, _⟩ => rfl
  | ⟨2, _⟩ => rfl
  | ⟨3, _⟩ => rfl

/-- The indices the two-axis sum visits at (b, ch) are exactly plane (b, ch). -/
theorem filter_drop (h : SX.ReducesTo [2, 3] SPool) (b : Fin 16) (ch : Fin 128) :
    Finset.univ.filter (fun i : SX.Idx => h.drop i = ix2 b ch) = Finset.univ.map (planeEmb b ch) := by
  ext i
  simp only [Finset.mem_filter, Finset.mem_univ, true_and, Finset.mem_map, planeEmb, Function.Embedding.coeFn_mk]
  constructor
  · intro hd
    exact ⟨(i 2, i 3), (eq_ix4_of_drop h i (ix2 b ch) hd).symm⟩
  · rintro ⟨p, rfl⟩
    exact drop_ix4 h b ch p.1 p.2

/-- The host's sum over rows and lanes, at (b, ch): the initial value plus the double sum over the plane. -/
theorem hostSum_apply (h : SX.ReducesTo [2, 3] SPool) (x : SX.Idx → EReal) (init : EReal) (b : Fin 16) (ch : Fin 128) :
    Ideal.hostReduceAdd h x init (ix2 b ch) = init + ∑ hh : Fin 256, ∑ w : Fin 256, x (ix4 b ch hh w) := by
  unfold Ideal.hostReduceAdd
  rw [filter_drop, Finset.sum_map, Fintype.sum_prod_type]
  rfl

/-! ## Rows in four chunks of 64 -/

/-- Row `hh` of chunk `j`. -/
abbrev hrow (j : Fin 4) (hh : Fin 64) : Fin 256 := ⟨hh.val + 64 * j.val, by omega⟩

/-- A sum over 256 rows is the sum over the four chunks of the sums over each chunk's 64 rows. -/
theorem sum_rows_split (g : Fin 256 → EReal) : ∑ h : Fin 256, g h = ∑ j : Fin 4, ∑ hh : Fin 64, g (hrow j hh) :=
  calc ∑ h : Fin 256, g h = ∑ p : Fin 4 × Fin 64, g (finProdFinEquiv p) := (Equiv.sum_comp (finProdFinEquiv (m := 4) (n := 64)) (fun h : Fin (4 * 64) => g h)).symm
    _ = ∑ p : Fin 4 × Fin 64, g (hrow p.1 p.2) := Finset.sum_congr rfl fun p _ => congrArg g (Fin.ext rfl)
    _ = ∑ j : Fin 4, ∑ hh : Fin 64, g (hrow j hh) := Fintype.sum_prod_type _

/-- The sum of chunk `j` of plane (b, ch). -/
def chunk (x : SX.Idx → EReal) (b : Fin 16) (ch : Fin 128) (j : Fin 4) : EReal :=
  ∑ hh : Fin 64, ∑ w : Fin 256, x (ix4 b ch (hrow j hh) w)

/-- What the kernel leaves at (b, ch): the four chunk sums accumulated onto zero in order, then scaled by 2^-16. -/
def pooled (x : SX.Idx → EReal) (b : Fin 16) (ch : Fin 128) : EReal :=
  ((((Ideal.ofBits .f32 0x00000000#32 + chunk x b ch 0) + chunk x b ch 1) + chunk x b ch 2) + chunk x b ch 3)
    * Ideal.ofBits .f32 0x37800000#32

/-- THE LAW.  Accumulating the four chunk sums onto zero in order and scaling by 2^-16 is the host's mean: the plane's
    total (from the zero initial value) divided by 65536.  Only associativity of + on the extended reals and the
    reading of the two scale words are used; no entry need be finite. -/
theorem pooled_eq_mean (h : SX.ReducesTo [2, 3] SPool) (x : SX.Idx → EReal) (b : Fin 16) (ch : Fin 128) :
    pooled x b ch
      = Ideal.div (Ideal.hostReduceAdd h x (Ideal.ofBits .f32 0x00000000#32) (ix2 b ch)) (Ideal.ofBits .f32 0x47800000#32) := by
  unfold pooled
  rw [mul_inv_eq_div, hostSum_apply, sum_rows_split (fun hh => ∑ w : Fin 256, x (ix4 b ch hh w)), Fin.sum_univ_four]
  simp only [chunk, add_assoc]

/-! ## The pooled array against the host's mean, as whole arrays -/

abbrev SOut : Shape := ⟨3, ![16, 1, 128]⟩
abbrev S0 : Shape := ⟨0, ![]⟩

/-- The kernel's [16, 1, 128] result array: entry (b, 0, ch) is the pooled value of plane (b, ch). -/
def pooledArr (x : SX.Idx → EReal) : SOut.Idx → EReal := fun i => pooled x (i 0) (i 2)

/-- Reshaped to [16, 128], the kernel's array IS the host's mean over rows and lanes: the two-axis sum from the zero
    initial value, divided entry by entry by the splat of 65536. -/
theorem pooledArr_eq_mean (x : FVec Ideal SX .f32) (hc : SOut.ShapeCasts SPool) (h' : SX.ReducesTo [2, 3] SPool)
    (hS : 0 < S0.numel) (hb : S0.BroadcastsInDim SPool (![] : Fin 0 → Fin SPool.rank)) :
    shapeCast SPool (pooledArr x) hc
      = Host.divf (Host.reduceAdd x (constant (F := Ideal) S0 .f32 0x00000000#32) h' hS)
          (broadcastInDim SPool ![] hb (constant (F := Ideal) S0 .f32 0x47800000#32)) := by
  funext q
  obtain ⟨b, ch, rfl⟩ : ∃ (b : Fin 16) (ch : Fin 128), q = ix2 b ch := ⟨q 0, q 1, eq_ix2 q⟩
  refine (shapeCast_apply (pooledArr x) hc (ix2 b ch) (ix3 b 0 ch) ?_).trans ?_
  · rw [Shape.rowMajor_val_three, Shape.rowMajor_val_two]
    show (b.val * 1 + 0) * 128 + ch.val = b.val * 128 + ch.val
    omega
  · exact pooled_eq_mean h' x b ch

end Cert.PoolMath

end
-- ==== Proof.PoolBody.lean ====
/-
  The pooling body's three payloads read at one entry (0, 0, ch) of the [1, 1, 128] output block, over the
  extended reals:

    zero block         : 0
    accumulate (x0, a) : a(0, 0, ch) + Σ_row Σ_lane x0(0, ch, row, lane)     (two lane reductions of the input block)
    scale a            : a(0, 0, ch) · 2^-16
-/
import proofs.«423690_j48387101557180_3_alg».proof.Proof.Gen.KernelIdeal.Skeleton
import proofs.«423690_j48387101557180_3_alg».proof.Proof.PoolMath

noncomputable section

namespace Cert.KernelIdeal.Pool

open Cert.KernelIdeal Cert.KernelIdeal.Gen
open Idealize.ShloMosaic Idealize.ShloMosaic.ValueIdx

/-- The zero block's entries are the zero word. -/
theorem zero_apply (y : S1x1x128.Idx) : (k0_pay1 (F := Ideal)) y = Ideal.ofBits .f32 0x00000000#32 := rfl

/-- The accumulating payload at channel `ch`: the running entry plus the block's double sum over rows and lanes. -/
theorem acc_apply (v3 : FVec Ideal S1x128x64x256 .f32) (v6 : FVec Ideal S1x1x128 .f32) (u v : Fin 1) (ch : Fin 128) :
    k0_pay2 v3 v6 (ix3 u v ch) = v6 (ix3 u v ch) + ∑ hh : Fin 64, ∑ w : Fin 256, v3 (ix4 0 ch hh w) := by
  obtain rfl : v = 0 := Subsingleton.elim _ _
  unfold k0_pay2
  show shapeCast S1x1x128 v6 _ (ix3 u 0 ch) + shapeCast S1x1x128 _ _ (ix3 u 0 ch) = _
  refine congrArg₂ (· + ·) (congrFun (shapeCast_self v6 _) _) ?_
  refine (shapeCast_ab_1ab_apply _ _ u 0 ch).trans ?_
  exact Cert.PoolMath.blockSum_apply v3 _ _ _ _ ch

/-- The scaling payload at an entry: the entry times the word 0x37800000. -/
theorem scale_apply (v14 : FVec Ideal S1x1x128 .f32) (y : S1x1x128.Idx) :
    k0_pay3 v14 y = v14 y * Ideal.ofBits .f32 0x37800000#32 := by
  unfold k0_pay3
  show shapeCast S1x1x128 v14 _ y * _ = _
  rw [shapeCast_self]
  rfl

end Cert.KernelIdeal.Pool

end
-- ==== Proof.PoolAcc.lean ====
/-
  The output block over the four grid points of one batch.

  The grid has 64 points; point t works on batch t / 4 and row-chunk t % 4, and the output block of a batch stays in
  its staging buffer over the batch's four points.  So after the fourth point the block holds

      scale (acc (X3, acc (X2, acc (X1, acc (X0, 0)))))

  where Xj is the input block of the batch's j-th point; and the input block of point t is rows
  64·(t % 4) … 64·(t % 4) + 63 of batch t / 4 of the argument.  Read at channel ch over the extended reals this is
  the four chunk sums accumulated onto zero in order and scaled by 2^-16.
-/
import proofs.«423690_j48387101557180_3_alg».proof.Proof.PoolPieces
import proofs.«423690_j48387101557180_3_alg».proof.Proof.PoolBody

noncomputable section

namespace Cert.KernelIdeal.Pool

open Cert.KernelIdeal Cert.KernelIdeal.Gen
open Idealize.ShloMosaic Idealize.ShloMosaic.TcCoe Idealize.SL.Sem Idealize.ShloMosaic.ValueIdx

section AnyFloat

variable {F : FTy → Type} [FloatOps F]
variable (m : (ℓ : Loc nD τ sig) → Buf (Elt F) ℓ)

/-- The input block at point `t`, at its literal type. -/
abbrev xblk (c : Dev nD) (t : Fin cfg0.N) : Vec F S1x128x64x256 .f32 := iblk m c 0 t

/-- The argument array as the region finds it, at its literal type. -/
abbrev xarr (c : Dev nD) : Vec F S16x128x256x256 .f32 := V m c main_arg0

/-- A batch's first point: the zero block plus the first chunk's sums. -/
theorem at_first (c : Dev nD) (n : ℕ) (hn : n < cfg0.N) (h : n % 4 = 0) :
    outsAt0 m c n hn = k0_pay2 (xblk m c ⟨n, hn⟩) (k0_pay1 (F := F)) :=
  (outsAt0_A m c ⟨n, hn⟩ h (by dsimp only; omega)).trans
    (out_A c (grid0.coords ⟨n, hn⟩) (ms0_0 ⟨n, hn⟩) (hs0_0 ⟨n, hn⟩) (ms0_1 ⟨n, hn⟩) (hs0_1 ⟨n, hn⟩) _ _ (iblk m c 0 ⟨n, hn⟩))

/-- A batch's second or third point: the chunk's sums added to what the point before left. -/
theorem at_mid (c : Dev nD) (n : ℕ) (hn : n + 1 < cfg0.N) (h0 : ¬(n + 1) % 4 = 0) (h1 : ¬(n + 1) % 4 = 3) :
    outsAt0 m c (n + 1) hn = k0_pay2 (xblk m c ⟨n + 1, hn⟩) (outsAt0 m c n (Nat.lt_of_succ_lt hn)) :=
  (outsAt0_B m c ⟨n + 1, hn⟩ h0 h1).trans
    (out_B c (grid0.coords ⟨n + 1, hn⟩) (ms0_0 ⟨n + 1, hn⟩) (hs0_0 ⟨n + 1, hn⟩) (ms0_1 ⟨n + 1, hn⟩) (hs0_1 ⟨n + 1, hn⟩) _ _
      (iblk m c 0 ⟨n + 1, hn⟩) (outsAt0 m c n (Nat.lt_of_succ_lt hn)))

/-- A batch's fourth point: the same, then scaled. -/
theorem at_last (c : Dev nD) (n : ℕ) (hn : n + 1 < cfg0.N) (h0 : ¬(n + 1) % 4 = 0) (h1 : (n + 1) % 4 = 3) :
    outsAt0 m c (n + 1) hn = k0_pay3 (k0_pay2 (xblk m c ⟨n + 1, hn⟩) (outsAt0 m c n (Nat.lt_of_succ_lt hn))) :=
  (outsAt0_C m c ⟨n + 1, hn⟩ h0 h1).trans
    (out_C c (grid0.coords ⟨n + 1, hn⟩) (ms0_0 ⟨n + 1, hn⟩) (hs0_0 ⟨n + 1, hn⟩) (ms0_1 ⟨n + 1, hn⟩) (hs0_1 ⟨n + 1, hn⟩) _ _
      (iblk m c 0 ⟨n + 1, hn⟩) (outsAt0 m c n (Nat.lt_of_succ_lt hn)))

/-- After the fourth point of the batch that starts at point `n`. -/
theorem after_four (c : Dev nD) (n : ℕ) (h3 : n + 3 < cfg0.N) (hn : n % 4 = 0) :
    outsAt0 m c (n + 3) h3
      = k0_pay3 (k0_pay2 (xblk m c ⟨n + 3, h3⟩) (k0_pay2 (xblk m c ⟨n + 2, by omega⟩) (k0_pay2 (xblk m c ⟨n + 1, by omega⟩)
          (k0_pay2 (xblk m c ⟨n, by omega⟩) (k0_pay1 (F := F)))))) := by
  have e3 := at_last m c (n + 2) h3 (by omega) (by omega)
  have e2 := at_mid m c (n + 1) (by omega) (by omega) (by omega)
  have e1 := at_mid m c n (by omega) (by omega) (by omega)
  have e0 := at_first m c n (by omega) hn
  rw [e0] at e1
  rw [e1] at e2
  rw [e2] at e3
  exact e3

/-- The printed index maps over the grid: point t reads block (t / 4, 0, t % 4, 0) and writes block (t / 4, 0, 0). -/
theorem idx_facts : ∀ t : Fin cfg0.N, win0_0.index t (0 : Fin 4) = t.val / 4 ∧ win0_0.index t (1 : Fin 4) = 0
    ∧ win0_0.index t (2 : Fin 4) = t.val % 4 ∧ win0_0.index t (3 : Fin 4) = 0
    ∧ win0_1.index t (0 : Fin 3) = t.val / 4 ∧ win0_1.index t (1 : Fin 3) = 0 ∧ win0_1.index t (2 : Fin 3) = 0 :=
  (by decide +kernel : ∀ t : Fin grid0.N, _)

/-- The input block of point t = 4b + j holds rows 64j … 64j + 63 of batch b. -/
theorem xblk_apply (c : Dev nD) (t : Fin cfg0.N) (b : Fin 16) (j : Fin 4) (ht : t.val = 4 * b.val + j.val)
    (ch : Fin 128) (hh : Fin 64) (w : Fin 256) :
    xblk m c t (ix4 0 ch hh w) = xarr m c (ix4 b ch (Cert.PoolMath.hrow j hh) w) := by
  obtain ⟨e0, e1, e2, e3, -⟩ := idx_facts t
  show iblk m c 0 t (ix4 0 ch hh w) = _
  unfold iblk
  rw [View.read_apply]
  show V m c main_arg0 _ = V m c main_arg0 _
  congr 1
  funext a
  apply Fin.ext
  have hj := j.isLt
  match a with
  | ⟨0, _⟩ => show win0_0.index t (0 : Fin 4) * 1 + 1 * 0 = b.val; rw [e0]; omega
  | ⟨1, _⟩ => show win0_0.index t (1 : Fin 4) * 128 + 1 * ch.val = ch.val; rw [e1]; omega
  | ⟨2, _⟩ => show win0_0.index t (2 : Fin 4) * 64 + 1 * hh.val = hh.val + 64 * j.val; rw [e2]; omega
  | ⟨3, _⟩ => show win0_0.index t (3 : Fin 4) * 256 + 1 * w.val = w.val; rw [e3]; omega

end AnyFloat

section Reals

variable (m : (ℓ : Loc nD τ sig) → Buf (Elt Ideal) ℓ)

/-- The double sum of the input block of point t = 4b + j at channel ch is chunk j of plane (b, ch). -/
theorem chunk_eq (c : Dev nD) (t : Fin cfg0.N) (b : Fin 16) (j : Fin 4) (ht : t.val = 4 * b.val + j.val) (ch : Fin 128) :
    ∑ hh : Fin 64, ∑ w : Fin 256, xblk m c t (ix4 0 ch hh w) = Cert.PoolMath.chunk (xarr m c) b ch j := by
  unfold Cert.PoolMath.chunk
  exact Finset.sum_congr rfl fun hh _ => Finset.sum_congr rfl fun w _ => xblk_apply m c t b j ht ch hh w

/-- After the fourth point of batch b the output block's entry at channel ch is the pooled value of plane (b, ch). -/
theorem entry_eq (c : Dev nD) (b : Fin 16) (h3 : 4 * b.val + 3 < cfg0.N) (u v : Fin 1) (ch : Fin 128) :
    outsAt0 m c (4 * b.val + 3) h3 (ix3 u v ch) = Cert.PoolMath.pooled (xarr m c) b ch := by
  refine (congrFun (after_four m c (4 * b.val) h3 (by omega)) (ix3 u v ch)).trans ?_
  refine (scale_apply _ _).trans ?_
  unfold Cert.PoolMath.pooled
  refine congrArg (· * _) ?_
  refine (acc_apply _ _ u v ch).trans ?_
  refine congrArg₂ (· + ·) ?_ (chunk_eq m c ⟨4 * b.val + 3, h3⟩ b 3 rfl ch)
  refine (acc_apply _ _ u v ch).trans ?_
  refine congrArg₂ (· + ·) ?_ (chunk_eq m c ⟨4 * b.val + 2, by omega⟩ b 2 rfl ch)
  refine (acc_apply _ _ u v ch).trans ?_
  refine congrArg₂ (· + ·) ?_ (chunk_eq m c ⟨4 * b.val + 1, by omega⟩ b 1 rfl ch)
  refine (acc_apply _ _ u v ch).trans ?_
  exact congrArg₂ (· + ·) (zero_apply _) (chunk_eq m c ⟨4 * b.val, by omega⟩ b 0 rfl ch)

/-- The same at a point given as a number: point n = 4b + 3. -/
theorem entry_at (c : Dev nD) (n : ℕ) (hn : n < cfg0.N) (b : Fin 16) (hb : n = 4 * b.val + 3) (u v : Fin 1) (ch : Fin 128) :
    outsAt0 m c n hn (ix3 u v ch) = Cert.PoolMath.pooled (xarr m c) b ch := by
  subst hb
  exact entry_eq m c b hn u v ch

end Reals

end Cert.KernelIdeal.Pool

end
-- ==== Proof.PoolFinal.lean ====
/-
  From blocks to the program's result.

  The output block of batch b is written back once, after the batch's fourth point (t = 4b + 3), to row b of the
  [16, 1, 128] result array; the sixteen blocks tile the array.  So after the region the array holds, at (b, 0, ch),
  the pooled value of plane (b, ch) of the argument.  The fifteen host lines after the region (reshape, the product
  with the transposed weight row, bias, logistic, the trailing unit axes) then compute the program's result from
  that array and the two small arguments, which nothing writes.
-/
import proofs.«423690_j48387101557180_3_alg».proof.Proof.PoolAcc
import Idealize.ShloMosaic.Lib.StableHlo.Run

noncomputable section

namespace Cert.KernelIdeal.Pool

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The result array of the region: the pooled values of the argument as the region finds it. -/
abbrev pooledOut (c : Dev nD) : Vec Ideal S16x1x128 .f32 := Cert.PoolMath.pooledArr (xarr m c)

/-- An entry of the block a flushing point leaves is the pooled value at the array index the block's rectangle
    puts it at: row t / 4, the entry's own channel. -/
theorem flushed_entry (c : Dev nD) (t : Fin cfg0.N) (h3 : t.val % 4 = 3) (y : S1x1x128.Idx) (i : S16x1x128.Idx)
    (hi0 : (i 0).val = t.val / 4) (hi2 : (i 2).val = (y 2).val) :
    outsAt0 m c t.val t.isLt y = pooledOut m c i := by
  have hN : t.val < 64 := lt_of_lt_of_eq t.isLt (show cfg0.N = 64 from N_0)
  obtain ⟨u, v, ch, rfl⟩ : ∃ (u v : Fin 1) (ch : Fin 128), y = ix3 u v ch := ⟨y 0, y 1, y 2, eq_ix3 y⟩
  have e0 : i 0 = (⟨t.val / 4, by omega⟩ : Fin 16) := Fin.ext hi0
  have e2 : i 2 = ch := Fin.ext hi2
  show _ = Cert.PoolMath.pooled (xarr m c) (i 0) (i 2)
  rw [e0, e2]
  exact entry_at m c t.val t.isLt ⟨t.val / 4, by omega⟩ (by dsimp only; omega) u v ch

/-- What a flushing point writes back is its block of the pooled array. -/
theorem flushed_eq (c : Dev nD) (t : Fin cfg0.N) (hf : (cfg0.win 1).flush t = true) :
    (dats m 0 c).flushed 1 t = ((cfg0.win 1).blk t).view.read (Elt Ideal) (pooledOut m c) := by
  have h3 : t.val % 4 = 3 := (flush0_1 t).mp hf
  obtain ⟨-, -, -, -, e4, e5, e6⟩ := idx_facts t
  show (cfg0.win 1).cut (grid0.coords t) ((dats m 0 c).after 1 t) = _
  rw [after0_1]
  funext y
  show outsAt0 m c t.val t.isLt y = pooledOut m c (((cfg0.win 1).blk t).view.emb y)
  refine flushed_entry m c t h3 y _ ?_ ?_
  · show win0_1.index t (0 : Fin 3) * 1 + 1 * (y 0).val = t.val / 4
    have hy : (y 0).val < 1 := (y 0).isLt
    rw [e4]; omega
  · show win0_1.index t (2 : Fin 3) * 128 + 1 * (y 2).val = (y 2).val
    rw [e6]; omega

/-- An index of the result array is in point t's block iff each coordinate is in the block's range on its axis. -/
theorem mem_blk (t : Fin cfg0.N) (i : S16x1x128.Idx) :
    i ∈ ((cfg0.win 1).blk t).view.set ↔ ∀ a : Fin 3, win0_1.index t a * S1x1x128.size a ≤ (i a).val
      ∧ (i a).val < win0_1.index t a * S1x1x128.size a + S1x1x128.size a := by
  show i ∈ ((View.whole main_v0).slice (win0_1.rect t)).set ↔ _
  rw [View.set_slice_whole, Rect.mem_set_unit]
  exact Iff.rfl

/-- THE ARRAY after the region: row b was written by point 4b + 3, so the whole array is the pooled array. -/
theorem final_o (c : Dev nD) : (dats m 0 c).arrAt 1 cfg0.N = pooledOut m c :=
  (dats m 0 c).arrAt_eq_of_cover 1 (pooledOut m c) (fun t hf => flushed_eq m c t hf) fun i => by
    have hN : cfg0.N = 64 := N_0
    have hi0 : (i 0).val < 16 := (i 0).isLt
    have hi1 : (i 1).val < 1 := (i 1).isLt
    have hi2 : (i 2).val < 128 := (i 2).isLt
    have ht : 4 * (i 0).val + 3 < cfg0.N := by omega
    refine ⟨⟨4 * (i 0).val + 3, ht⟩, (flush0_1 _).mpr (by dsimp only; omega), ?_⟩
    rw [mem_blk]
    obtain ⟨-, -, -, -, e4, e5, e6⟩ := idx_facts ⟨4 * (i 0).val + 3, ht⟩
    intro a
    match a with
    | ⟨0, _⟩ =>
      show win0_1.index ⟨4 * (i 0).val + 3, ht⟩ (0 : Fin 3) * 1 ≤ (i 0).val
        ∧ (i 0).val < win0_1.index ⟨4 * (i 0).val + 3, ht⟩ (0 : Fin 3) * 1 + 1
      rw [e4]; dsimp only; omega
    | ⟨1, _⟩ =>
      show win0_1.index ⟨4 * (i 0).val + 3, ht⟩ (1 : Fin 3) * 1 ≤ (i 1).val
        ∧ (i 1).val < win0_1.index ⟨4 * (i 0).val + 3, ht⟩ (1 : Fin 3) * 1 + 1
      rw [e5]; omega
    | ⟨2, _⟩ =>
      show win0_1.index ⟨4 * (i 0).val + 3, ht⟩ (2 : Fin 3) * 128 ≤ (i 2).val
        ∧ (i 2).val < win0_1.index ⟨4 * (i 0).val + 3, ht⟩ (2 : Fin 3) * 128 + 128
      rw [e6]; omega

/-! ## The host lines after the region -/

/-- The fifteen host lines after the region, as one function of the pooled [16, 128] array, the weight row and the
    bias: sigmoid (q · Wᵀ + bias), with two unit axes appended. -/
def head (q : FVec Ideal S16x128 .f32) (W : FVec Ideal S1x128 .f32) (bias : FVec Ideal S1 .f32) : FVec Ideal S16x1x1x1 .f32 :=
  broadcastInDim S16x1x1x1 ![0, 1] bcast_S16x1_S16x1x1x1_0_1
    (Host.divf (broadcastInDim S16x1 ![] bcast_S_S16x1 (constant (F := Ideal) S_ .f32 0x3F800000#32))
      (addf (broadcastInDim S16x1 ![] bcast_S_S16x1 (constant (F := Ideal) S_ .f32 0x3F800000#32))
        (Host.exp (Host.negf (addf
          (Host.dotGeneral dot_S16x128_S128x1_S16x1_1_0_0_1_n_n none q (transpose S128x1 [1, 0] W transposes_S1x128_S128x1_1_0))
          (broadcastInDim S16x1 ![0, 1] bcast_S1x1_S16x1_0_1 (broadcastInDim S1x1 ![1] bcast_S1_S1x1_1 bias)))))))

/-- The program's result after the host lines: `head` of the reshaped pooled array and the two small arguments. -/
theorem tail_eq (c : Dev nD) :
    Pipeline.afterTail₀ cfgs (dats m) 0 (V0 m) [hostOps1] c main_v13
      = head (shapeCast S16x128 (pooledOut m c) shapeCasts_S16x1x128_S16x128)
          (m ((c : Thread nD τ).loc main_arg1)) (m ((c : Thread nD τ).loc main_arg2)) := by
  unfold Pipeline.afterTail₀
  show StableHlo.after hostOps1 _ (Proc.devRef .tc main_v13) = _
  after_results
  rw [show Pipeline.withArrays (cfgs 0).spec c (V0 m c) (fun w => (dats m 0 c).arrAt w (cfgs 0).N) (Proc.devRef .tc main_v0)
        = pooledOut m c from (Pipeline.withArrays_arr spec0 launch0.win.arr_inj c _ _ 1).trans (final_o m c),
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2))]
  rfl

/-- The run of the idealized kernel, read: the result at `head` of the pooled array, the arguments unchanged. -/
theorem run : θ_run defs (onTc (τ := τ) (main (F := Ideal))) ⟨m, fun _ => 0, ρ⟩ fun r => ∀ c : Dev nD,
      r.2.mem ((c.tc : Thread nD τ).loc main_v13)
        = head (shapeCast S16x128 (pooledOut m c) shapeCasts_S16x1x128_S16x128)
            (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Pool

end
-- ==== Proof.lean ====
/-
  Channel attention by pooling: a Pallas kernel that averages each (batch, channel) plane of x f32[16, 128, 256, 256]
  — accumulating the plane's four 64-row chunks into a resident [1, 1, 128] output block over a 16 × 4 grid and
  scaling by 2^-16 at the last chunk — followed by sigmoid (pooled · Wᵀ + b) on the host, against jnp's
  sigmoid (mean (x, axes 2 and 3) · Wᵀ + b).

  Over the extended reals the two programs compute the same function.  The host lines after the mean are the same
  fifteen operations with the same words in both programs, so the whole claim rests on the pooled array: the
  kernel leaves (((0 + c0) + c1) + c2) + c3) · 2^-16 at (b, ch), the chunk sums cj taken lane-first and then row-wise,
  and the reference (0 + Σ over the whole plane) / 65536.  These agree because + on the extended reals is associative and
  commutative (a finite sum may be cut into chunks and re-associated at the infinities too) and because a product
  with 2^-16 is the quotient by 2^16 on every extended real.  The finiteness precondition is not used.

  The frames of the two kernel programs are the generated frame proofs; the reference's frame is its generated run
  with the result dropped; the ideal pass rewrote nothing, so the kernel's idealization is the kernel's own text.
-/
import proofs.«423690_j48387101557180_3_alg».proof.Defs
import proofs.«423690_j48387101557180_3_alg».proof.Proof.Gen.Kernel
import proofs.«423690_j48387101557180_3_alg».proof.Proof.Gen.Kernel.Skeleton
import proofs.«423690_j48387101557180_3_alg».proof.Proof.Gen.Kernel.Launch
import proofs.«423690_j48387101557180_3_alg».proof.Proof.Gen.Kernel.Points
import proofs.«423690_j48387101557180_3_alg».proof.Proof.Gen.Kernel.Frame
import proofs.«423690_j48387101557180_3_alg».proof.Proof.Gen.KernelIdeal
import proofs.«423690_j48387101557180_3_alg».proof.Proof.Gen.KernelIdeal.Skeleton
import proofs.«423690_j48387101557180_3_alg».proof.Proof.Gen.KernelIdeal.Launch
import proofs.«423690_j48387101557180_3_alg».proof.Proof.Gen.KernelIdeal.Points
import proofs.«423690_j48387101557180_3_alg».proof.Proof.Gen.KernelIdeal.Frame
import proofs.«423690_j48387101557180_3_alg».proof.Proof.Gen.ReferenceIdeal
import proofs.«423690_j48387101557180_3_alg».proof.Proof.Gen.ReferenceIdeal.Run
import proofs.«423690_j48387101557180_3_alg».proof.Proof.Gen.Pre_finite_inputs
import proofs.«423690_j48387101557180_3_alg».proof.Proof.PoolFinal
import Idealize.ShloMosaic.Adequacy
import Idealize.ShloMosaic.Init

noncomputable section

namespace Cert.Proof

open Idealize.ShloMosaic Idealize.ShloMosaic.TcCoe Idealize.SL.Sem

namespace PoolClaims

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at `head` of one [16, 128] array and the same two small arguments: the kernel's pooled array
    reshaped, which is the reference's mean (Cert.PoolMath.pooledArr_eq_mean). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (congrArg (fun q => Cert.KernelIdeal.Pool.head q _ _)
    (Cert.PoolMath.pooledArr_eq_mean (Cert.KernelIdeal.Pool.xarr m c) _ _ _ _)).symm

end PoolClaims

theorem claim : Cert.Claim := ⟨Cert.Kernel.Gen.facts, Cert.KernelIdeal.Gen.facts, Cert.ReferenceIdeal.Gen.facts, Cert.Pre_finite_inputs.Gen.facts,
  PoolClaims.frame_k, PoolClaims.frame_ki, PoolClaims.frame_ri, trivial, PoolClaims.algebraic⟩

end Cert.Proof

end
